-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S8x65 : Shape := ⟨2, ![8, 65]⟩
abbrev S8 : Shape := ⟨1, ![8]⟩
abbrev S_ : Shape := ⟨0, ![]⟩

class Facts : Prop where
  bcast_S_S8x65 : S_.BroadcastsInDim S8x65 (![] : Fin 0 → Fin S8x65.rank)
  reducesTo_S8x65_S_d0_1 : S8x65.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : IVec S4x2048 32) (main_arg1 : FVec F S8x65 .f32) (main_arg2 : FVec F S8 .f32) : IVec S_ 1 :=
  let main_v0 : FVec F S8x65 .f32 := Host.absf main_arg1
  let main_cst : FVec F S_ .f32 := constant S_ .f32 0x7F800000#32
  let main_v1 : FVec F S8x65 .f32 := broadcastInDim S8x65 ![] bcast_S_S8x65 main_cst
  let main_v2 : IVec S8x65 1 := cmpf .olt main_v0 main_v1
  let main_c : IVec S_ 1 := constantI S_ 1 1#1
  let main_v3 : IVec S_ 1 := (fun x v => Host.reduce IntOp.andi x v reducesTo_S8x65_S_d0_1 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S4x2048 : Shape := ⟨2, ![4, 2048]⟩
abbrev S8x65 : Shape := ⟨2, ![8, 65]⟩
abbrev S8 : Shape := ⟨1, ![8]⟩
abbrev S65x8 : Shape := ⟨2, ![65, 8]⟩
abbrev S4x2048x1 : Shape := ⟨3, ![4, 2048, 1]⟩
abbrev S4x1x2048 : Shape := ⟨3, ![4, 1, 2048]⟩
abbrev S4x2048x16384 : Shape := ⟨3, ![4, 2048, 16384]⟩
abbrev S1x128x1 : Shape := ⟨3, ![1, 128, 1]⟩
abbrev S1x1x256 : Shape := ⟨3, ![1, 1, 256]⟩
abbrev S1x128x2048 : Shape := ⟨3, ![1, 128, 2048]⟩
abbrev S1x64x1 : Shape := ⟨3, ![1, 64, 1]⟩
abbrev S64x1 : Shape := ⟨2, ![64, 1]⟩
abbrev S1x1x128 : Shape := ⟨3, ![1, 1, 128]⟩
abbrev S1x128 : Shape := ⟨2, ![1, 128]⟩
abbrev S64x128 : Shape := ⟨2, ![64, 128]⟩
abbrev S64x128x65 : Shape := ⟨3, ![64, 128, 65]⟩
abbrev S64x128x1 : Shape := ⟨3, ![64, 128, 1]⟩
abbrev S8192x65 : Shape := ⟨2, ![8192, 65]⟩
abbrev S8192x8 : Shape := ⟨2, ![8192, 8]⟩
abbrev S64x128x8 : Shape := ⟨3, ![64, 128, 8]⟩
abbrev S1x1x8 : Shape := ⟨3, ![1, 1, 8]⟩
abbrev S64x1024 : Shape := ⟨2, ![64, 1024]⟩
abbrev S1x64x1024 : Shape := ⟨3, ![1, 64, 1024]⟩
abbrev S4x2048x2048x8 : Shape := ⟨4, ![4, 2048, 2048, 8]⟩

abbrev nBuf : Space → Nat
  | .hbm => 8
  | .vmem => 8
  | .smem => 0
  | _ => 0

abbrev bufTy : (tb : Table) → Fin (tcTables nBuf tb) → BufTy
  | .hbm, ⟨0, _⟩ => ⟨S4x2048, .i32⟩
  | .hbm, ⟨1, _⟩ => ⟨S8x65, .f32⟩
  | .hbm, ⟨2, _⟩ => ⟨S8, .f32⟩
  | .hbm, ⟨3, _⟩ => ⟨S65x8, .f32⟩
  | .hbm, ⟨4, _⟩ => ⟨S4x2048x1, .i32⟩
  | .hbm, ⟨5, _⟩ => ⟨S4x1x2048, .i32⟩
  | .hbm, ⟨6, _⟩ => ⟨S4x2048x16384, .f32⟩
  | .hbm, ⟨7, _⟩ => ⟨S4x2048x2048x8, .f32⟩
  | .local _ .vmem, ⟨0, _⟩ => ⟨S1x128x1, .i32⟩
  | .local _ .vmem, ⟨1, _⟩ => ⟨S1x128x1, .i32⟩
  | .local _ .vmem, ⟨2, _⟩ => ⟨S1x1x256, .i32⟩
  | .local _ .vmem, ⟨3, _⟩ => ⟨S1x1x256, .i32⟩
  | .local _ .vmem, ⟨4, _⟩ => ⟨S65x8, .f32⟩
  | .local _ .vmem, ⟨5, _⟩ => ⟨S8, .f32⟩
  | .local _ .vmem, ⟨6, _⟩ => ⟨S1x128x2048, .f32⟩
  | .local _ .vmem, ⟨7, _⟩ => ⟨S1x128x2048, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S65x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S8x65_S65x8_1_0 : S8x65.Transposes [1, 0] S65x8
  shapeCasts_S4x2048_S4x2048x1 : S4x2048.ShapeCasts S4x2048x1
  shapeCasts_S4x2048_S4x1x2048 : S4x2048.ShapeCasts S4x1x2048
  inb_S65x8_S65x8_0_0 : ∀ a, (![0, 0] : Fin 2 → Nat) a + S65x8.size a ≤ S65x8.size a
  h_S65x8 : 0 < S65x8.numel
  shapeCasts_S65x8_S65x8 : S65x8.ShapeCasts S65x8
  bitsLt_bf16_f32 : FTy.bits .bf16 < FTy.bits .f32
  inb_S8_S8_0 : ∀ a, (![0] : Fin 1 → Nat) a + S8.size a ≤ S8.size a
  h_S8 : 0 < S8.numel
  inb_S1x128x1_S1x64x1_0_0_0 : ∀ a, (![0, 0, 0] : Fin 3 → Nat) a + S1x64x1.size a ≤ S1x128x1.size a
  h_S1x64x1 : 0 < S1x64x1.numel
  shapeCasts_S1x64x1_S64x1 : S1x64x1.ShapeCasts S64x1
  inb_S1x1x256_S1x1x128_0_0_0 : ∀ a, (![0, 0, 0] : Fin 3 → Nat) a + S1x1x128.size a ≤ S1x1x256.size a
  h_S1x1x128 : 0 < S1x1x128.numel
  shapeCasts_S1x1x128_S1x128 : S1x1x128.ShapeCasts S1x128
  broadcasts_S64x1_S64x128 : S64x1.Broadcasts S64x128
  broadcasts_S1x128_S64x128 : S1x128.Broadcasts S64x128
  iota_S64x128x65_d2_w32 : S64x128x65.Iotas .tc 32 [2]
  shapeCasts_S64x128_S64x128x1 : S64x128.ShapeCasts S64x128x1
  broadcasts_S64x128x1_S64x128x65 : S64x128x1.Broadcasts S64x128x65
  natLt_1_32 : 1 < 32
  shapeCasts_S64x128x65_S8192x65 : S64x128x65.ShapeCasts S8192x65
  shapeCasts_S8192x8_S64x128x8 : S8192x8.ShapeCasts S64x128x8
  shapeCasts_S8_S1x1x8 : S8.ShapeCasts S1x1x8
  broadcasts_S1x1x8_S64x128x8 : S1x1x8.Broadcasts S64x128x8
  shapeCasts_S64x128x8_S64x1024 : S64x128x8.ShapeCasts S64x1024
  inb_S1x128x2048_S1x64x1024_0_0_0 : ∀ a, (![0, 0, 0] : Fin 3 → Nat) a + S1x64x1024.size a ≤ S1x128x2048.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x1x256_S1x1x128_0_0_128 : ∀ a, (![0, 0, 128] : Fin 3 → Nat) a + S1x1x128.size a ≤ S1x1x256.size a
  inb_S1x128x2048_S1x64x1024_0_0_1024 : ∀ a, (![0, 0, 1024] : Fin 3 → Nat) a + S1x64x1024.size a ≤ S1x128x2048.size a
  inb_S1x128x1_S1x64x1_0_64_0 : ∀ a, (![0, 64, 0] : Fin 3 → Nat) a + S1x64x1.size a ≤ S1x128x1.size a
  inb_S1x128x2048_S1x64x1024_0_64_0 : ∀ a, (![0, 64, 0] : Fin 3 → Nat) a + S1x64x1024.size a ≤ S1x128x2048.size a
  inb_S1x128x2048_S1x64x1024_0_64_1024 : ∀ a, (![0, 64, 1024] : Fin 3 → Nat) a + S1x64x1024.size a ≤ S1x128x2048.size a
  shapeCasts_S4x2048x16384_S4x2048x2048x8 : S4x2048x16384.ShapeCasts S4x2048x2048x8
  dot_S8192x65_S65x8_S8192x8_1_0_0_1_n_n_wf : DotDims.WF S8192x65 S65x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1.size a ≤ S4x2048x1.size a
  hwx0_0 : ∀ i : grid0.Coords, EltTy.bits .i32 = 32 ∨ (Rect.block (s := S4x2048x1) S1x128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S4x1x2048.size a
  hwx0_1 : ∀ i : grid0.Coords, EltTy.bits .i32 = 32 ∨ (Rect.block (s := S4x1x2048) S1x1x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x8.size a ≤ S65x8.size a
  hwx0_2 : ∀ i : grid0.Coords, EltTy.bits .f32 = 32 ∨ (Rect.block (s := S65x8) S65x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S4x2048x16384.size a
  hwx0_4 : ∀ i : grid0.Coords, EltTy.bits .f32 = 32 ∨ (Rect.block (s := S4x2048x16384) S1x128x2048.size (cc0_transform_4 i) (hinb0_4 i)).WholeWords (EltTy.packing .f32)

variable [Facts₀]

def dot_S8192x65_S65x8_S8192x8_1_0_0_1_n_n : DotDims S8192x65 S65x8 S8192x8 where
  lhsContracting := [1]
  rhsContracting := [0]
  lhsNonContracting := [0]
  rhsNonContracting := [1]
  lhsBatch := []
  rhsBatch := []
  wf := dot_S8192x65_S65x8_S8192x8_1_0_0_1_n_n_wf

abbrev win0_0 : Pipeline.Window sig grid0 :=
  Pipeline.Window.ofSpec (Memref.whole main_v1) S1x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S65x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048 : Shape := ⟨2, ![4, 2048]⟩
abbrev S8x65 : Shape := ⟨2, ![8, 65]⟩
abbrev S8 : Shape := ⟨1, ![8]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S_ : Shape := ⟨0, ![]⟩
abbrev S65x8 : Shape := ⟨2, ![65, 8]⟩
abbrev S4x2048x2048x1 : Shape := ⟨4, ![4, 2048, 2048, 1]⟩
abbrev S4x2048x2048x8 : Shape := ⟨4, ![4, 2048, 2048, 8]⟩
abbrev S1x1x1x8 : Shape := ⟨4, ![1, 1, 1, 8]⟩

abbrev nBuf : Space → Nat
  | .hbm => 32
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S8x65, .f32⟩
  | .hbm, ⟨2, _⟩ => ⟨S8, .f32⟩
  | .hbm, ⟨3, _⟩ => ⟨S4x2048x1, .i32⟩
  | .hbm, ⟨4, _⟩ => ⟨S4x1x2048, .i32⟩
  | .hbm, ⟨5, _⟩ => ⟨S4x2048x2048, .i32⟩
  | .hbm, ⟨6, _⟩ => ⟨S4x2048x2048, .i32⟩
  | .hbm, ⟨7, _⟩ => ⟨S4x2048x2048, .i32⟩
  | .hbm, ⟨8, _⟩ => ⟨S_, .i32⟩
  | .hbm, ⟨9, _⟩ => ⟨S4x2048x2048, .i32⟩
  | .hbm, ⟨10, _⟩ => ⟨S4x2048x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x2048x2048, .i32⟩
  | .hbm, ⟨15, _⟩ => ⟨S4x2048x2048, .i32⟩
  | .hbm, ⟨16, _⟩ => ⟨S_, .i32⟩
  | .hbm, ⟨17, _⟩ => ⟨S4x2048x2048, .i32⟩
  | .hbm, ⟨18, _⟩ => ⟨S4x2048x2048, .i32⟩
  | .hbm, ⟨19, _⟩ => ⟨S65x8, .f32⟩
  | .hbm, ⟨20, _⟩ => ⟨S_, .i32⟩
  | .hbm, ⟨21, _⟩ => ⟨S4x2048x2048, .i32⟩
  | .hbm, ⟨22, _⟩ => ⟨S4x2048x2048, .i1⟩
  | .hbm, ⟨23, _⟩ => ⟨S_, .i32⟩
  | .hbm, ⟨24, _⟩ => ⟨S4x2048x2048, .i32⟩
  | .hbm, ⟨25, _⟩ => ⟨S4x2048x2048, .i32⟩
  | .hbm, ⟨26, _⟩ => ⟨S4x2048x2048, .i32⟩
  | .hbm, ⟨27, _⟩ => ⟨S4x2048x2048x1, .i32⟩
  | .hbm, ⟨28, _⟩ => ⟨S4x2048x2048x8, .f32⟩
  | .hbm, ⟨29, _⟩ => ⟨S1x1x1x8, .f32⟩
  | .hbm, ⟨30, _⟩ => ⟨S4x2048x2048x8, .f32⟩
  | .hbm, ⟨31, _⟩ => ⟨S4x2048x2048x8, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  transposes_S8x65_S65x8_1_0 : S8x65.Transposes [1, 0] S65x8
  bcast_S4x2048x2048_S4x2048x2048x1_0_1_2 : S4x2048x2048.BroadcastsInDim S4x2048x2048x1 (![0, 1, 2] : Fin 3 → Fin S4x2048x2048x1.rank)
  bcast_S8_S1x1x1x8_3 : S8.BroadcastsInDim S1x1x1x8 (![3] : Fin 1 → Fin S1x1x1x8.rank)
  bcast_S1x1x1x8_S4x2048x2048x8_0_1_2_3 : S1x1x1x8.BroadcastsInDim S4x2048x2048x8 (![0, 1, 2, 3] : Fin 4 → Fin S4x2048x2048x8.rank)
  gather_S65x8_S4x2048x2048x1_S4x2048x2048x8_3_0_n_n_0_3_18_wf : GatherDims.WF S65x8 S4x2048x2048x1 S4x2048x2048x8 [3] [0] [] [0] [] 3 ![1, 8]

variable [Facts₀]

def gather_S65x8_S4x2048x2048x1_S4x2048x2048x8_3_0_n_n_0_3_18 : GatherDims S65x8 S4x2048x2048x1 S4x2048x2048x8 where
  offsetDims := [3]
  collapsedSliceDims := [0]
  operandBatchingDims := []
  startIndicesBatchingDims := []
  startIndexMap := [0]
  indexVectorDim := 3
  sliceSizes := ![1, 8]
  wf := gather_S65x8_S4x2048x2048x1_S4x2048x2048x8_3_0_n_n_0_3_18_wf

class Facts : Prop extends Facts₀ where

variable [Facts]
-- ==== Proof.Encoding.lean ====
/-
  The relative positional encoding, stated once, over literal shapes and with no program in sight.

  For position words `a` and `b` (32-bit, wrap-around arithmetic) the BIN is `a - b + 32` clamped into `[0, 64]`:
  first raised to at least `0`, then cut at `64`. Entry `(b, i, j, d)` of the encoding is the table entry
  `W[d, bin(index[b, i], index[b, j])]` plus `bias[d]`: a row of the transposed table picked by the bin.
-/
import Idealize.ShloMosaic.PureOps.Ideal
import Idealize.ShloMosaic.Lib.ValueIdx

noncomputable section

namespace Cert.Encoding

open Idealize.ShloMosaic Idealize.ShloMosaic.ValueIdx

/-- The bin of two position words: their wrap-around difference plus 32, clamped into `[0, 64]`. -/
def bin (a b : BitVec 32) : BitVec 32 :=
  IntOp.minsi 64#32 (IntOp.maxsi 0#32 (IntOp.addi (IntOp.subi a b) 32#32))

/-- Clamping any word into `[0, 64]` leaves a word that, read signed, lies in `[0, 64]`. -/
theorem clamp_range (x : BitVec 32) :
    0 ≤ (IntOp.minsi 64#32 (IntOp.maxsi 0#32 x)).toInt ∧ (IntOp.minsi 64#32 (IntOp.maxsi 0#32 x)).toInt ≤ 64 := by
  have h0 : (0#32 : BitVec 32).toInt = 0 := by decide
  have h64 : (64#32 : BitVec 32).toInt = 64 := by decide
  unfold IntOp.minsi IntOp.maxsi
  simp only [BitVec.slt, decide_eq_true_eq, h0, h64]
  split_ifs <;> omega

theorem bin_nonneg (a b : BitVec 32) : 0 ≤ (bin a b).toInt := (clamp_range _).1
theorem bin_le (a b : BitVec 32) : (bin a b).toInt ≤ 64 := (clamp_range _).2

/-- The bin as a row number of the 65-row table. -/
def binRow (a b : BitVec 32) : Fin 65 :=
  ⟨(bin a b).toInt.toNat, by have := bin_nonneg a b; have := bin_le a b; omega⟩

theorem binRow_val (a b : BitVec 32) : ((binRow a b).val : Int) = (bin a b).toInt := by
  have := bin_nonneg a b
  show ((bin a b).toInt.toNat : Int) = _
  omega

/-- The encoding: entry `(b, i, j, d)` is `W[d, bin(index[b, i], index[b, j])] + bias[d]`. -/
def enc (index : (⟨2, ![4, 2048]⟩ : Shape).Idx → BitVec 32) (W : (⟨2, ![8, 65]⟩ : Shape).Idx → EReal)
    (bias : (⟨1, ![8]⟩ : Shape).Idx → EReal) : (⟨4, ![4, 2048, 2048, 8]⟩ : Shape).Idx → EReal :=
  fun y => W (ix2 (y 3) (binRow (index (ix2 (y 0) (y 1))) (index (ix2 (y 0) (y 2))))) + bias (ix1 (y 3))

theorem enc_apply (index : (⟨2, ![4, 2048]⟩ : Shape).Idx → BitVec 32) (W : (⟨2, ![8, 65]⟩ : Shape).Idx → EReal)
    (bias : (⟨1, ![8]⟩ : Shape).Idx → EReal) (b : Fin 4) (i j : Fin 2048) (d : Fin 8) :
    enc index W bias (ix4 b i j d) = W (ix2 d (binRow (index (ix2 b i)) (index (ix2 b j)))) + bias (ix1 d) := rfl

end Cert.Encoding

end
-- ==== Proof.RefEncoding.lean ====
/-
  The reference computes the encoding.

  The reference forms, for every `(b, i, j)`, the word `index[b, i] - index[b, j] + 32`, raises it to at least `0` and
  cuts it at `64` (the bin), adds `65` to it where it is negative (nowhere: a bin is never negative), and gathers row
  `bin` of the transposed table — the gather clamps its start into `[0, 64]`, which leaves a bin alone — and adds the
  bias along the last axis. Entry `(b, i, j, d)` is therefore `W[d, bin] + bias[d]`.
-/
import proofs.«418835_j32366873543059_2_alg».proof.Proof.Gen.ReferenceIdeal.Read
import proofs.«418835_j32366873543059_2_alg».proof.Proof.Encoding
import Idealize.ShloMosaic.Lib.ValueIdx

noncomputable section

namespace Cert.ReferenceIdeal.RefEncoding

open Idealize.ShloMosaic Idealize.ShloMosaic.ValueIdx Cert.ReferenceIdeal Cert.ReferenceIdeal.Gen Cert.ReferenceIdeal.Read
  Cert.Encoding

/-! ## The gather of table rows, read at an entry -/

/-- The gather takes, for every `(b, i, j)`, the whole row of the `65 x 8` operand whose number is the start word at
    `(b, i, j, 0)` read signed and clamped into `[0, 64]`: result entry `(b, i, j, d)` is the operand at `(row, d)`. -/
theorem gather_row_apply {α : Type} (x : S65x8.Idx → α) (idx : IVec S4x2048x2048x1 32)
    (b : Fin 4) (i j : Fin 2048) (d : Fin 8) :
    Host.gather gather_S65x8_S4x2048x2048x1_S4x2048x2048x8_3_0_n_n_0_3_18 x idx (ix4 b i j d)
      = x (ix2 (⟨min (idx (ix4 b i j (0 : Fin 1))).toInt.toNat 64, by omega⟩ : Fin 65) d) := by
  unfold Host.gather
  congr 1
  funext a
  refine Fin.ext ?_
  match a with
  | ⟨0, h0⟩ =>
    -- the row axis is collapsed and is the start index's one component
    show GatherDims.start _ _ _ _ + GatherDims.batchCoord _ _ _ + GatherDims.offCoord _ _ _ = _
    have hm : (⟨0, h0⟩ : Fin 2) ∈ gather_S65x8_S4x2048x2048x1_S4x2048x2048x8_3_0_n_n_0_3_18.startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ gather_S65x8_S4x2048x2048x1_S4x2048x2048x8_3_0_n_n_0_3_18.sKept from
        (by decide : (0 : Fin 2) ∉ ([1] : List (Fin 2))))]
    unfold GatherDims.start
    rw [dif_pos hm]
    have hsi : gather_S65x8_S4x2048x2048x1_S4x2048x2048x8_3_0_n_n_0_3_18.siIdx (ix4 b i j d)
        ⟨List.idxOf (⟨0, h0⟩ : Fin 2) gather_S65x8_S4x2048x2048x1_S4x2048x2048x8_3_0_n_n_0_3_18.startIndexMap,
          List.idxOf_lt_length_iff.2 hm⟩ = ix4 b i j (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, h1⟩ =>
    -- the channel axis is the offset axis: no start, the result's own last coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ gather_S65x8_S4x2048x2048x1_S4x2048x2048x8_3_0_n_n_0_3_18.startIndexMap from
      (by decide : (1 : Fin 2) ∉ ([0] : List (Fin 2))))]
    unfold GatherDims.offCoord
    rw [dif_pos (show (⟨1, h1⟩ : Fin 2) ∈ gather_S65x8_S4x2048x2048x1_S4x2048x2048x8_3_0_n_n_0_3_18.sKept from
      (by decide : (1 : Fin 2) ∈ ([1] : List (Fin 2))))]
    rw [Nat.add_zero, Nat.zero_add]
    rfl

/-- The same with the row named: when the start word at `(b, i, j, 0)`, read signed, is the number of row `row`, the
    clamp is idle and result entry `(b, i, j, d)` is the operand at `(row, d)`. -/
theorem gather_row_of_mem {α : Type} (x : S65x8.Idx → α) (idx : IVec S4x2048x2048x1 32)
    (b : Fin 4) (i j : Fin 2048) (d : Fin 8) (row : Fin 65)
    (h : (idx (ix4 b i j (0 : Fin 1))).toInt = (row.val : Int)) :
    Host.gather gather_S65x8_S4x2048x2048x1_S4x2048x2048x8_3_0_n_n_0_3_18 x idx (ix4 b i j d) = x (ix2 row d) := by
  rw [gather_row_apply]
  refine congrArg x (funext fun a => Fin.ext ?_)
  match a with
  | ⟨0, _⟩ =>
    show min (idx (ix4 b i j (0 : Fin 1))).toInt.toNat 64 = row.val
    have := row.isLt
    omega
  | ⟨1, _⟩ => rfl

/-! ## The start word is the bin -/

theorem row_index (b : Fin 4) (i j : Fin 2048) : idx_main_v0 (idx_main_v2 (ix3 b i j)) = ix2 b i :=
  funext fun a => Fin.ext (by match a with | ⟨0, _⟩ => rfl | ⟨1, _⟩ => rfl)

theorem col_index (b : Fin 4) (i j : Fin 2048) : idx_main_v1 (idx_main_v3 (ix3 b i j)) = ix2 b j :=
  funext fun a => Fin.ext (by match a with | ⟨0, _⟩ => rfl | ⟨1, _⟩ => rfl)

/-- The clamped difference the reference computes at `(b, i, j)` is the bin of `index[b, i]` and `index[b, j]`. -/
theorem clipped_eq_bin (x0 : IVec S4x2048 32) (b : Fin 4) (i j : Fin 2048) :
    val_main_v7 (F := Ideal) x0 (ix3 b i j) = bin (x0 (ix2 b i)) (x0 (ix2 b j)) := by
  rw [val_main_v7_apply, val_main_call0_v4_apply, val_main_call0_v3_apply, val_main_c_1_apply, val_main_call0_v2_apply,
    val_main_call0_v1_apply, val_main_call0_v0_apply, val_main_c_0_apply, val_main_v6_apply, val_main_v4_apply,
    val_main_v5_apply, val_main_c_apply, val_main_v2_apply, val_main_v0_apply, val_main_v3_apply, val_main_v1_apply,
    row_index, col_index]
  rfl

/-- Adding the table's length to a negative row number does nothing to a word that is not negative. -/
theorem wrap_idle (w u : BitVec 32) (h : 0 ≤ w.toInt) :
    Scalar.select (IntOp.cmpi .slt w 0#32) (IntOp.addi w u) w = w := by
  have hs : BitVec.slt w 0#32 = false := by
    simp only [BitVec.slt, BitVec.toInt_zero]
    exact decide_eq_false (by omega)
  unfold Scalar.select IntOp.cmpi
  simp only [hs]
  rfl

/-- The start word of the gather at `(b, i, j, 0)` is the bin. -/
theorem start_eq_bin (x0 : IVec S4x2048 32) (b : Fin 4) (i j : Fin 2048) :
    val_main_v14 (F := Ideal) x0 (ix4 b i j (0 : Fin 1)) = bin (x0 (ix2 b i)) (x0 (ix2 b j)) := by
  have e : idx_main_v14 (ix4 b i j (0 : Fin 1)) = ix3 b i j :=
    funext fun a => Fin.ext (by match a with | ⟨0, _⟩ => rfl | ⟨1, _⟩ => rfl | ⟨2, _⟩ => rfl)
  rw [val_main_v14_apply, e, val_main_v13_apply, val_main_v10_apply, val_main_v12_apply, val_main_v9_apply,
    val_main_c_2_apply, clipped_eq_bin]
  exact wrap_idle _ _ (bin_nonneg _ _)

/-! ## The reference's result is the encoding -/

/-- The gathered entry: row `bin` of the transposed table at channel `d`, that is `W[d, bin]`. -/
theorem gathered_eq (x0 : IVec S4x2048 32) (x1 : FVec Ideal S8x65 .f32) (b : Fin 4) (i j : Fin 2048) (d : Fin 8) :
    val_main_v15 (F := Ideal) x0 x1 (ix4 b i j d) = x1 (ix2 d (binRow (x0 (ix2 b i)) (x0 (ix2 b j)))) := by
  unfold val_main_v15
  refine (gather_row_of_mem (val_main_v8 (F := Ideal) x1) (val_main_v14 (F := Ideal) x0) b i j d
    (binRow (x0 (ix2 b i)) (x0 (ix2 b j))) ?_).trans ?_
  · rw [start_eq_bin]
    exact (binRow_val _ _).symm
  · rw [val_main_v8_apply]
    exact congrArg x1 (funext fun a => Fin.ext (by match a with | ⟨0, _⟩ => rfl | ⟨1, _⟩ => rfl))

/-- The bias, broadcast along the last axis. -/
theorem bias_eq (x2 : FVec Ideal S8 .f32) (b : Fin 4) (i j : Fin 2048) (d : Fin 8) :
    val_main_v17 (F := Ideal) x2 (ix4 b i j d) = x2 (ix1 d) := by
  rw [val_main_v17_apply, val_main_v16_apply]
  exact congrArg x2 (funext fun a => Fin.ext (by match a with | ⟨0, _⟩ => rfl))

theorem stage_eq_enc (x0 : IVec S4x2048 32) (x1 : FVec Ideal S8x65 .f32) (x2 : FVec Ideal S8 .f32) :
    val_main_v18 (F := Ideal) x0 x1 x2 = enc x0 x1 x2 := by
  funext y
  obtain ⟨b, i, j, d, rfl⟩ : ∃ (b : Fin 4) (i j : Fin 2048) (d : Fin 8), y = ix4 b i j d :=
    ⟨y 0, y 1, y 2, y 3, eq_ix4 y⟩
  rw [enc_apply, val_main_v18_apply, gathered_eq, bias_eq]
  rfl

end Cert.ReferenceIdeal.RefEncoding

end
-- ==== Proof.Chunk.lean ====
/-
  One 64 x 128 chunk of the kernel's body, read at an entry.

  The chunk takes the table (65 rows of 8), the bias (8), a column of 64 row-position words and a row of 128
  column-position words. For row `r`, column `jj` and channel `d` it forms the bin of the two words, compares the bin
  (as a number) with each of the 65 category numbers, and multiplies the resulting 0/1 row into the table: the sum
  over the 65 categories has exactly one non-zero term, the table's row at the bin. The bias is added and the
  `(64, 128, 8)` value is laid out row-major as `(1, 64, 1024)`, so entry `(0, r, jj * 8 + d)` is
  `table[bin, d] + bias[d]`.
-/
import proofs.«418835_j32366873543059_2_alg».proof.Proof.Gen.KernelIdeal.Skeleton
import proofs.«418835_j32366873543059_2_alg».proof.Proof.Encoding
import Idealize.ShloMosaic.PureOps.Ideal.Laws
import Idealize.ShloMosaic.Lib.ValueIdx
import Idealize.ShloMosaic.Lib.Pipeline.Value

noncomputable section

namespace Cert.KernelIdeal.Chunk

open Idealize.ShloMosaic Idealize.ShloMosaic.ValueIdx Cert.KernelIdeal Cert.KernelIdeal.Gen Cert.Encoding

/-- The position array at (r, jj) is the bin of the row word and the column word. -/
theorem pos_apply (ri : IVec S64x1 32) (cj : IVec S1x1x128 32)
    (h1 : S1x1x128.ShapeCasts S1x128) (h2 : S64x1.Broadcasts S64x128) (h3 : S1x128.Broadcasts S64x128)
    (r : Fin 64) (jj : Fin 128) :
    minsi (broadcast S64x128 64#32) (maxsi (broadcast S64x128 0#32)
        (addi (subi (broadcastTo S64x128 ri h2) (broadcastTo S64x128 (shapeCast S1x128 cj h1) h3)) (broadcast S64x128 32#32)))
        (ix2 r jj)
      = bin (ri (ix2 r (0 : Fin 1))) (cj (ix3 (0 : Fin 1) (0 : Fin 1) jj)) := by
  have e1 : broadcastTo S64x128 ri h2 (ix2 r jj) = ri (ix2 r (0 : Fin 1)) :=
    broadcastTo_apply _ h2 _ _ fun a => match a with
      | ⟨0, _⟩ => by show r.val = if (64 : Nat) = 1 then 0 else r.val; rfl
      | ⟨1, _⟩ => by show (0 : Nat) = if (1 : Nat) = 1 then 0 else jj.val; rfl
  have e2 : broadcastTo S64x128 (shapeCast S1x128 cj h1) h3 (ix2 r jj) = cj (ix3 (0 : Fin 1) (0 : Fin 1) jj) := by
    refine (broadcastTo_apply _ h3 _ (ix2 (0 : Fin 1) jj) fun a => match a with
      | ⟨0, _⟩ => by show (0 : Nat) = if (1 : Nat) = 1 then 0 else r.val; rfl
      | ⟨1, _⟩ => by show jj.val = if (128 : Nat) = 1 then 0 else jj.val; rfl).trans ?_
    refine shapeCast_apply _ h1 _ _ ?_
    rw [Shape.rowMajor_val_three, Shape.rowMajor_val_two]
    show (0 * 1 + 0) * 128 + jj.val = 0 * 128 + jj.val
    omega
  show IntOp.minsi 64#32 (IntOp.maxsi 0#32 (IntOp.addi (IntOp.subi (broadcastTo S64x128 ri h2 (ix2 r jj))
    (broadcastTo S64x128 (shapeCast S1x128 cj h1) h3 (ix2 r jj))) 32#32)) = _
  rw [e1, e2]
  rfl

/-- The product array, reshaped, with the bias added and laid out as (1, 64, 1024), read at (0, r, jj * 8 + d). -/
theorem tail_apply (mm : FVec Ideal S8192x8 .f32) (bias : Vec Ideal S8 .f32)
    (h1 : S8192x8.ShapeCasts S64x128x8) (h2 : S8.ShapeCasts S1x1x8) (h3 : S1x1x8.Broadcasts S64x128x8)
    (h4 : S64x128x8.ShapeCasts S64x1024) (h5 : S64x1024.ShapeCasts S1x64x1024)
    (r : Fin 64) (jj : Fin 128) (d : Fin 8) :
    shapeCast S1x64x1024 (shapeCast S64x1024 (addf (shapeCast S64x128x8 mm h1)
        (broadcastTo S64x128x8 (shapeCast S1x1x8 bias h2) h3)) h4) h5
        (ix3 (0 : Fin 1) r (⟨jj.val * 8 + d.val, by omega⟩ : Fin 1024))
      = mm (ix2 (⟨r.val * 128 + jj.val, by omega⟩ : Fin 8192) d) + bias (ix1 d) := by
  have hr := r.isLt
  have hj := jj.isLt
  have hd := d.isLt
  refine (shapeCast_apply _ h5 _ (ix2 r (⟨jj.val * 8 + d.val, by omega⟩ : Fin 1024)) ?_).trans ?_
  · rw [Shape.rowMajor_val_two, Shape.rowMajor_val_three]
    show r.val * 1024 + (jj.val * 8 + d.val) = (0 * 64 + r.val) * 1024 + (jj.val * 8 + d.val)
    omega
  refine (shapeCast_apply _ h4 _ (ix3 r jj d) ?_).trans ?_
  · rw [Shape.rowMajor_val_three, Shape.rowMajor_val_two]
    show (r.val * 128 + jj.val) * 8 + d.val = r.val * 1024 + (jj.val * 8 + d.val)
    omega
  show shapeCast S64x128x8 mm h1 (ix3 r jj d) + broadcastTo S64x128x8 (shapeCast S1x1x8 bias h2) h3 (ix3 r jj d) = _
  congr 1
  · refine shapeCast_apply _ h1 _ _ ?_
    rw [Shape.rowMajor_val_two, Shape.rowMajor_val_three]
    show (r.val * 128 + jj.val) * 8 + d.val = (r.val * 128 + jj.val) * 8 + d.val
    rfl
  · refine (broadcastTo_apply _ h3 _ (ix3 (0 : Fin 1) (0 : Fin 1) d) fun a => match a with
      | ⟨0, _⟩ => by show (0 : Nat) = if (1 : Nat) = 1 then 0 else r.val; rfl
      | ⟨1, _⟩ => by show (0 : Nat) = if (1 : Nat) = 1 then 0 else jj.val; rfl
      | ⟨2, _⟩ => by show d.val = if (8 : Nat) = 1 then 0 else d.val; rfl).trans ?_
    refine shapeCast_apply _ h2 _ _ ?_
    rw [Shape.rowMajor_val_one, Shape.rowMajor_val_three]
    show d.val = (0 * 1 + 0) * 8 + d.val
    omega

/-- A category number below 65, as a 32-bit word read signed, is itself. -/
theorem toInt_ofNat_cat (k : Fin 65) : (BitVec.ofNat 32 k.val).toInt = (k.val : Int) := by
  have hk := k.isLt
  have hn : (BitVec.ofNat 32 k.val).toNat = k.val := by
    rw [BitVec.toNat_ofNat]; exact Nat.mod_eq_of_lt (by omega)
  rw [BitVec.toInt_eq_toNat_cond, hn, if_pos (by omega)]

/-- The 0/1 array at (r, jj, k): one where the category number k is the position word read signed, zero elsewhere. -/
theorem onehot_apply (pos : IVec S64x128 32) (hi : S64x128x65.Iotas .tc 32 [2]) (h1 : S64x128.ShapeCasts S64x128x1)
    (h2 : S64x128x1.Broadcasts S64x128x65) (h3 : 1 < 32) (h4 : FTy.bits .bf16 < FTy.bits .f32)
    (r : Fin 64) (jj : Fin 128) (k : Fin 65) :
    (truncf .bf16 (sitofp (F := Ideal) .f32 (extui 32 (cmpf .oeq
        (broadcastTo S64x128x65 (shapeCast S64x128x1 (sitofp (F := Ideal) .bf16 pos) h1) h2)
        (sitofp (F := Ideal) .bf16 (iota .tc S64x128x65 32 [2] hi))) h3)) h4 : FVec Ideal S64x128x65 .bf16) (ix3 r jj k)
      = if (k.val : Int) = (pos (ix2 r jj)).toInt then (1 : EReal) else 0 := by
  have e1 : broadcastTo S64x128x65 (shapeCast S64x128x1 (sitofp (F := Ideal) .bf16 pos) h1) h2 (ix3 r jj k)
      = (((pos (ix2 r jj)).toInt : ℝ) : EReal) := by
    refine (broadcastTo_apply _ h2 _ (ix3 r jj (0 : Fin 1)) fun a => match a with
      | ⟨0, _⟩ => by show r.val = if (64 : Nat) = 1 then 0 else r.val; rfl
      | ⟨1, _⟩ => by show jj.val = if (128 : Nat) = 1 then 0 else jj.val; rfl
      | ⟨2, _⟩ => by show (0 : Nat) = if (1 : Nat) = 1 then 0 else k.val; rfl).trans ?_
    refine (shapeCast_apply _ h1 _ (ix2 r jj) ?_).trans ?_
    · rw [Shape.rowMajor_val_two, Shape.rowMajor_val_three]
      show r.val * 128 + jj.val = (r.val * 128 + jj.val) * 1 + 0
      omega
    rfl
  have e2 : iota .tc S64x128x65 32 [2] hi (ix3 r jj k) = BitVec.ofNat 32 k.val :=
    iota_single_apply .tc S64x128x65 32 2 hi (ix3 r jj k)
  show ((((Ideal.cmp .oeq (broadcastTo S64x128x65 (shapeCast S64x128x1 (sitofp (F := Ideal) .bf16 pos) h1) h2 (ix3 r jj k))
    (((iota .tc S64x128x65 32 [2] hi (ix3 r jj k)).toInt : ℝ) : EReal)).setWidth 32).toInt : ℝ) : EReal) = _
  rw [e1, e2, toInt_ofNat_cat]
  show ((((BitVec.ofBool (decide ((((pos (ix2 r jj)).toInt : ℝ) : EReal) = (((k.val : Int) : ℝ) : EReal)))).setWidth 32).toInt : ℝ) : EReal) = _
  by_cases hk : (k.val : Int) = (pos (ix2 r jj)).toInt
  · rw [if_pos hk, decide_eq_true (by rw [hk])]
    have h1 : ((BitVec.ofBool true).setWidth 32).toInt = 1 := by decide
    rw [h1]
    simp
  · have hne : ¬ ((((pos (ix2 r jj)).toInt : ℝ) : EReal) = (((k.val : Int) : ℝ) : EReal)) := fun h =>
      hk (Int.cast_inj.mp (EReal.coe_eq_coe_iff.mp h)).symm
    rw [if_neg hk, decide_eq_false hne]
    have h0 : ((BitVec.ofBool false).setWidth 32).toInt = 0 := by decide
    rw [h0]
    simp

/-- The 0/1 row at (r, jj) times the table's column d, summed over the 65 categories, is the table's entry at the
    category whose number is the position word read signed: the sum has one non-zero term. -/
theorem sum_onehot (pos : IVec S64x128 32) (tbl : FVec Ideal S65x8 .bf16) (hi : S64x128x65.Iotas .tc 32 [2])
    (h1 : S64x128.ShapeCasts S64x128x1) (h2 : S64x128x1.Broadcasts S64x128x65) (h3 : 1 < 32)
    (h4 : FTy.bits .bf16 < FTy.bits .f32) (r : Fin 64) (jj : Fin 128) (d : Fin 8) (b : Fin 65)
    (hb : (b.val : Int) = (pos (ix2 r jj)).toInt) :
    ∑ k : Fin 65, (truncf .bf16 (sitofp (F := Ideal) .f32 (extui 32 (cmpf .oeq
        (broadcastTo S64x128x65 (shapeCast S64x128x1 (sitofp (F := Ideal) .bf16 pos) h1) h2)
        (sitofp (F := Ideal) .bf16 (iota .tc S64x128x65 32 [2] hi))) h3)) h4 : FVec Ideal S64x128x65 .bf16) (ix3 r jj k)
          * tbl (ix2 k d)
      = tbl (ix2 b d) := by
  refine (Finset.sum_eq_single b ?_ ?_).trans ?_
  · intro k _ hk
    rw [onehot_apply, if_neg, zero_mul]
    intro h
    exact hk (Fin.ext (Int.ofNat_inj.mp (h.trans hb.symm)))
  · intro h
    exact absurd (Finset.mem_univ _) h
  · rw [onehot_apply, if_pos hb, one_mul]

/-- The reshaped 0/1 array times the table, into the zero accumulator, read at row r * 128 + jj and channel d:
    the sum over the 65 categories. -/
theorem mm_apply (oh : FVec Ideal S64x128x65 .bf16) (tbl : FVec Ideal S65x8 .bf16)
    (h : S64x128x65.ShapeCasts S8192x65) (r : Fin 64) (jj : Fin 128) (d : Fin 8) :
    matmul dot_S8192x65_S65x8_S8192x8_1_0_0_1_n_n none (shapeCast S8192x65 oh h) tbl
        (constant (F := Ideal) S8192x8 .f32 0x00000000#32) (ix2 (⟨r.val * 128 + jj.val, by omega⟩ : Fin 8192) d)
      = ∑ k : Fin 65, oh (ix3 r jj k) * tbl (ix2 k d) := by
  have hr := r.isLt
  have hj := jj.isLt
  refine (Ideal.matmul_constant_zero_apply _ none _ _ _).trans ?_
  rw [← Equiv.sum_comp (contrEquiv1 dot_S8192x65_S65x8_S8192x8_1_0_0_1_n_n 65 rfl rfl).symm]
  refine Finset.sum_congr rfl fun c _ => ?_
  have c2 := contrEquiv1_symm_val dot_S8192x65_S65x8_S8192x8_1_0_0_1_n_n 65 rfl rfl c
  have l2 : dot_S8192x65_S65x8_S8192x8_1_0_0_1_n_n.lhsIdx (ix2 (⟨r.val * 128 + jj.val, by omega⟩ : Fin 8192) d)
      ((contrEquiv1 _ 65 rfl rfl).symm c) = ix2 (⟨r.val * 128 + jj.val, by omega⟩ : Fin 8192) c := by
    funext ax; apply Fin.ext
    match ax with
    | ⟨0, _⟩ => simp [DotDims.lhsIdx, dot_S8192x65_S65x8_S8192x8_1_0_0_1_n_n]; rfl
    | ⟨1, _⟩ => simp [DotDims.lhsIdx, dot_S8192x65_S65x8_S8192x8_1_0_0_1_n_n]; exact c2
  have r2 : dot_S8192x65_S65x8_S8192x8_1_0_0_1_n_n.rhsIdx (ix2 (⟨r.val * 128 + jj.val, by omega⟩ : Fin 8192) d)
      ((contrEquiv1 _ 65 rfl rfl).symm c) = ix2 c d := by
    funext ax; apply Fin.ext
    match ax with
    | ⟨0, _⟩ => simp [DotDims.rhsIdx, dot_S8192x65_S65x8_S8192x8_1_0_0_1_n_n]; exact c2
    | ⟨1, _⟩ => simp [DotDims.rhsIdx, dot_S8192x65_S65x8_S8192x8_1_0_0_1_n_n]; rfl
  rw [l2, r2]
  congr 1
  refine shapeCast_apply _ h _ _ ?_
  rw [Shape.rowMajor_val_three, Shape.rowMajor_val_two]
  show (r.val * 128 + jj.val) * 65 + c.val = (r.val * 128 + jj.val) * 65 + c.val
  rfl

/-- Entry `(0, r, jj * 8 + d)` of a chunk is the table's row at the bin of row word `r` and column word `jj`, at channel
    `d`, plus the bias at `d`. -/
theorem chunk_apply (tbl : FVec Ideal S65x8 .bf16) (bias : Vec Ideal S8 .f32) (ri : IVec S64x1 32)
    (cj : Vec Ideal S1x1x128 .i32) (r : Fin 64) (jj : Fin 128) (d : Fin 8) :
    k0_pay5 (F := Ideal) tbl bias ri cj (ix3 (0 : Fin 1) r (⟨jj.val * 8 + d.val, by omega⟩ : Fin 1024))
      = tbl (ix2 (binRow (ri (ix2 r (0 : Fin 1))) (cj (ix3 (0 : Fin 1) (0 : Fin 1) jj))) d) + bias (ix1 d) := by
  unfold k0_pay5
  -- the two outer reshapes, the bias and the reshape of the product
  refine (tail_apply _ bias _ _ _ _ _ r jj d).trans ?_
  congr 1
  -- the product at row r * 128 + jj is the sum over the 65 categories
  refine (mm_apply _ tbl _ r jj d).trans ?_
  -- the 0/1 row at (r, jj) has its one at the bin, the position word at (r, jj)
  exact sum_onehot _ tbl _ _ _ _ _ r jj d _
    ((binRow_val _ _).trans (congrArg BitVec.toInt (pos_apply ri cj _ _ _ r jj).symm))

end Cert.KernelIdeal.Chunk

end
-- ==== Proof.Block.lean ====
/-
  What the body leaves in one output block.

  The body cuts its `128 x 256` tile of the `(i, j)` plane into four `64 x 128` chunks and stores each chunk's
  `(64, 128, 8)` result, laid out as `64 x 1024`, at its place in the `128 x 2048` block. All four are the same function
  of their row words and column words; so the block, entry by entry, is: at row `p` and flat column `q`, the table's
  row at the bin of row word `p` and column word `q / 8`, at channel `q % 8`, plus the bias at that channel.
-/
import proofs.«418835_j32366873543059_2_alg».proof.Proof.Gen.KernelIdeal.Frame
import proofs.«418835_j32366873543059_2_alg».proof.Proof.Chunk
import Idealize.ShloMosaic.Lib.ValueIdx
import Idealize.ShloMosaic.Lib.Pipeline.Value

set_option maxRecDepth 16384

noncomputable section

namespace Cert.KernelIdeal.Block

open Idealize.ShloMosaic Idealize.ShloMosaic.ValueIdx Cert.KernelIdeal Cert.KernelIdeal.Gen Cert.Encoding
open Cert.KernelIdeal.Chunk

theorem hz1 : (![0] : Fin 1 → Nat) = fun _ => 0 := funext fun a => by fin_cases a <;> rfl
theorem hz2 : (![0, 0] : Fin 2 → Nat) = fun _ => 0 := funext fun a => by fin_cases a <;> rfl

/-! ## The four chunks are one function -/

section AnyInstance
variable {F : FTy → Type} [FloatOps F]

/-- The first chunk, which narrows the table and reshapes its row words itself, is the chunk function of the narrowed
    table and the reshaped row words. -/
theorem first_chunk (v0 : Vec F S65x8 .f32) (v3 : Vec F S8 .f32) (v4 : Vec F S1x64x1 .i32) (v6 : Vec F S1x1x128 .i32) :
    k0_pay4 v0 v3 v4 v6 = k0_pay5 (k0_pay2 v0) v3 (k0_pay3 v4) v6 := rfl

/-- The third chunk, whose bin is formed ahead of it, is the chunk function of the same words. -/
theorem third_chunk (v2 : FVec F S65x8 .bf16) (v3 : Vec F S8 .f32) (v66 : Vec F S1x64x1 .i32) (v68 : Vec F S1x1x128 .i32) :
    k0_pay8 v2 v3 (k0_pay7 v66 v68) = k0_pay5 v2 v3 (k0_pay6 v66) v68 := rfl

/-- The fourth chunk, whose last reshape is made at the store, is the chunk function. -/
theorem fourth_chunk (v2 : FVec F S65x8 .bf16) (v3 : Vec F S8 .f32) (v67 : IVec S64x1 32) (v98 : Vec F S1x1x128 .i32) :
    k0_pay1 (k0_pay9 v2 v3 v67 v98) = k0_pay5 v2 v3 v67 v98 := rfl

end AnyInstance

/-! ## What a chunk is given -/

/-- The table as loaded whole and narrowed is the table: a change of float format is the identity on the extended reals. -/
theorem table_eq (x2 : Vec Ideal S65x8 .f32) : k0_pay2 (F := Ideal) (View.ld x2 r0_0) = x2 := by
  unfold k0_pay2
  rw [View.ld_unit_zero (S := S65x8) hz2]
  funext i
  show shapeCast S65x8 x2 _ i = x2 i
  rw [shapeCast_self]

/-- The bias as loaded whole is the bias. -/
theorem bias_eq (x3 : Vec Ideal S8 .f32) : View.ld x3 r0_1 = x3 := View.ld_unit_zero (S := S8) hz1 _ x3

/-- Row word `r` of the column of 64 words loaded from row `ro` on is the block's row word `ro + r`. -/
theorem rows_lo (x0 : Vec Ideal S1x128x1 .i32) (r : Fin 64) :
    k0_pay3 (F := Ideal) (View.ld x0 r0_2) (ix2 r (0 : Fin 1)) = x0 (ix3 (0 : Fin 1) (⟨0 + r.val, by omega⟩ : Fin 128) (0 : Fin 1)) := by
  unfold k0_pay3
  refine (shapeCast_apply _ _ (ix2 r (0 : Fin 1)) (ix3 (0 : Fin 1) r (0 : Fin 1)) ?_).trans ?_
  · rw [Shape.rowMajor_val_three, Shape.rowMajor_val_two]
    show ((0 : Nat) * 64 + r.val) * 1 + 0 = r.val * 1 + 0
    omega
  · exact congrArg x0 (funext fun a => Fin.ext (by
      match a with
      | ⟨0, _⟩ => rfl
      | ⟨1, _⟩ => show 0 + 1 * r.val = 0 + r.val; omega
      | ⟨2, _⟩ => rfl))

theorem rows_hi (x0 : Vec Ideal S1x128x1 .i32) (r : Fin 64) :
    k0_pay6 (F := Ideal) (View.ld x0 r0_7) (ix2 r (0 : Fin 1)) = x0 (ix3 (0 : Fin 1) (⟨64 + r.val, by omega⟩ : Fin 128) (0 : Fin 1)) := by
  unfold k0_pay6
  refine (shapeCast_apply _ _ (ix2 r (0 : Fin 1)) (ix3 (0 : Fin 1) r (0 : Fin 1)) ?_).trans ?_
  · rw [Shape.rowMajor_val_three, Shape.rowMajor_val_two]
    show ((0 : Nat) * 64 + r.val) * 1 + 0 = r.val * 1 + 0
    omega
  · exact congrArg x0 (funext fun a => Fin.ext (by
      match a with
      | ⟨0, _⟩ => rfl
      | ⟨1, _⟩ => show 64 + 1 * r.val = 64 + r.val; omega
      | ⟨2, _⟩ => rfl))

/-- Column word `jj` of the row of 128 words loaded from column `co` on is the block's column word `co + jj`. -/
theorem cols_lo (x1 : Vec Ideal S1x1x256 .i32) (jj : Fin 128) :
    View.ld x1 r0_3 (ix3 (0 : Fin 1) (0 : Fin 1) jj) = x1 (ix3 (0 : Fin 1) (0 : Fin 1) (⟨0 + jj.val, by omega⟩ : Fin 256)) :=
  congrArg x1 (funext fun a => Fin.ext (by
    match a with
    | ⟨0, _⟩ => rfl
    | ⟨1, _⟩ => rfl
    | ⟨2, _⟩ => show 0 + 1 * jj.val = 0 + jj.val; omega))

theorem cols_hi (x1 : Vec Ideal S1x1x256 .i32) (jj : Fin 128) :
    View.ld x1 r0_5 (ix3 (0 : Fin 1) (0 : Fin 1) jj) = x1 (ix3 (0 : Fin 1) (0 : Fin 1) (⟨128 + jj.val, by omega⟩ : Fin 256)) :=
  congrArg x1 (funext fun a => Fin.ext (by
    match a with
    | ⟨0, _⟩ => rfl
    | ⟨1, _⟩ => rfl
    | ⟨2, _⟩ => show 128 + 1 * jj.val = 128 + jj.val; omega))

/-! ## The block, entry by entry -/

/-- The entry for block row `row`, column word `col` and channel `d`. -/
def entry (x0 : Vec Ideal S1x128x1 .i32) (x1 : Vec Ideal S1x1x256 .i32) (x2 : Vec Ideal S65x8 .f32) (x3 : Vec Ideal S8 .f32)
    (row : Fin 128) (col : Fin 256) (d : Fin 8) : EReal :=
  x2 (ix2 (binRow (x0 (ix3 (0 : Fin 1) row (0 : Fin 1))) (x1 (ix3 (0 : Fin 1) (0 : Fin 1) col))) d) + x3 (ix1 d)

/-- The block: at `(0, p, q)` the entry for row `p`, column word `q / 8`, channel `q % 8`. -/
def blockFn (x0 : Vec Ideal S1x128x1 .i32) (x1 : Vec Ideal S1x1x256 .i32) (x2 : Vec Ideal S65x8 .f32) (x3 : Vec Ideal S8 .f32) :
    S1x128x2048.Idx → EReal :=
  fun y => entry x0 x1 x2 x3 (y 1) (⟨(y 2).val / 8, by have h : (y 2).val < 2048 := (y 2).isLt; omega⟩ : Fin 256)
    (⟨(y 2).val % 8, by omega⟩ : Fin 8)

/-- A chunk whose row words are the block's from row `ro` on and whose column words are the block's from column word
    `co` on computes, at its entry `(0, r, jj * 8 + d)`, the block's entry at `(0, ro + r, co * 8 + jj * 8 + d)`. -/
theorem chunk_entry (x0 : Vec Ideal S1x128x1 .i32) (x1 : Vec Ideal S1x1x256 .i32) (x2 : Vec Ideal S65x8 .f32) (x3 : Vec Ideal S8 .f32)
    (ri : IVec S64x1 32) (cj : Vec Ideal S1x1x128 .i32) (ro co : Nat) (hro : ro + 64 ≤ 128) (hco : co + 128 ≤ 256)
    (hri : ∀ r : Fin 64, ri (ix2 r (0 : Fin 1)) = x0 (ix3 (0 : Fin 1) (⟨ro + r.val, by omega⟩ : Fin 128) (0 : Fin 1)))
    (hcj : ∀ jj : Fin 128, cj (ix3 (0 : Fin 1) (0 : Fin 1) jj) = x1 (ix3 (0 : Fin 1) (0 : Fin 1) (⟨co + jj.val, by omega⟩ : Fin 256)))
    (r : Fin 64) (jj : Fin 128) (d : Fin 8) :
    k0_pay5 (F := Ideal) (k0_pay2 (View.ld x2 r0_0)) (View.ld x3 r0_1) ri cj (ix3 (0 : Fin 1) r (⟨jj.val * 8 + d.val, by omega⟩ : Fin 1024))
      = blockFn x0 x1 x2 x3 (ix3 (0 : Fin 1) (⟨ro + r.val, by omega⟩ : Fin 128) (⟨co * 8 + (jj.val * 8 + d.val), by omega⟩ : Fin 2048)) := by
  rw [chunk_apply, table_eq, bias_eq, hri, hcj]
  show entry x0 x1 x2 x3 (⟨ro + r.val, _⟩ : Fin 128) (⟨co + jj.val, _⟩ : Fin 256) d
    = entry x0 x1 x2 x3 (⟨ro + r.val, _⟩ : Fin 128) (⟨(co * 8 + (jj.val * 8 + d.val)) / 8, _⟩ : Fin 256)
        (⟨(co * 8 + (jj.val * 8 + d.val)) % 8, _⟩ : Fin 8)
  have e1 : (⟨co + jj.val, by omega⟩ : Fin 256) = ⟨(co * 8 + (jj.val * 8 + d.val)) / 8, by omega⟩ := Fin.ext (by show co + jj.val = (co * 8 + (jj.val * 8 + d.val)) / 8; omega)
  have e2 : d = (⟨(co * 8 + (jj.val * 8 + d.val)) % 8, by omega⟩ : Fin 8) := Fin.ext (by show d.val = (co * 8 + (jj.val * 8 + d.val)) % 8; omega)
  rw [← e1, ← e2]

/-- Every index of a `1 x 64 x 1024` piece is `(0, r, jj * 8 + d)`. -/
theorem piece_coords (x : S1x64x1024.Idx) :
    ∃ (r : Fin 64) (jj : Fin 128) (d : Fin 8), x = ix3 (0 : Fin 1) r (⟨jj.val * 8 + d.val, by omega⟩ : Fin 1024) := by
  have h2 : (x 2).val < 1024 := (x 2).isLt
  have h0 : (x 0).val < 1 := (x 0).isLt
  refine ⟨x 1, ⟨(x 2).val / 8, by omega⟩, ⟨(x 2).val % 8, by omega⟩, ?_⟩
  funext a
  refine Fin.ext ?_
  match a with
  | ⟨0, _⟩ => show (x 0).val = 0; omega
  | ⟨1, _⟩ => rfl
  | ⟨2, _⟩ => show (x 2).val = (x 2).val / 8 * 8 + (x 2).val % 8; omega

/-- THE BLOCK after the body: the four stores tile it, and each stores the block function's values at its place. -/
theorem out_eq (x0 : Vec Ideal S1x128x1 .i32) (x1 : Vec Ideal S1x1x256 .i32) (x2 : Vec Ideal S65x8 .f32) (x3 : Vec Ideal S8 .f32) :
    out0_4 (F := Ideal) x0 x1 x2 x3 = blockFn x0 x1 x2 x3 := by
  funext y
  unfold out0_4
  refine View.canon_apply_of_pieces (Val := Elt Ideal) (e := .f32) (blockFn x0 x1 x2 x3) _ ?_ y (cover0_4 _ _ _ _ y)
  intro p hp x
  simp only [List.mem_cons, List.mem_nil_iff, or_false] at hp
  rcases hp with rfl | rfl | rfl | rfl
  · -- rows 64.., column words 128..
    obtain ⟨r, jj, d, rfl⟩ := piece_coords x
    show k0_pay1 (k0_pay9 (k0_pay2 (View.ld x2 r0_0)) (View.ld x3 r0_1) (k0_pay6 (View.ld x0 r0_7)) (View.ld x1 r0_5)) _ = _
    rw [fourth_chunk]
    refine (chunk_entry x0 x1 x2 x3 _ _ 64 128 (by omega) (by omega) (rows_hi x0) (cols_hi x1) r jj d).trans ?_
    exact congrArg (blockFn x0 x1 x2 x3) (funext fun a => Fin.ext (by
      match a with
      | ⟨0, _⟩ => rfl
      | ⟨1, _⟩ => show 64 + r.val = 64 + 1 * r.val; omega
      | ⟨2, _⟩ => show 128 * 8 + (jj.val * 8 + d.val) = 1024 + 1 * (jj.val * 8 + d.val); omega))
  · -- rows 64.., column words 0..
    obtain ⟨r, jj, d, rfl⟩ := piece_coords x
    show k0_pay8 (k0_pay2 (View.ld x2 r0_0)) (View.ld x3 r0_1) (k0_pay7 (View.ld x0 r0_7) (View.ld x1 r0_3)) _ = _
    rw [third_chunk]
    refine (chunk_entry x0 x1 x2 x3 _ _ 64 0 (by omega) (by omega) (rows_hi x0) (cols_lo x1) r jj d).trans ?_
    exact congrArg (blockFn x0 x1 x2 x3) (funext fun a => Fin.ext (by
      match a with
      | ⟨0, _⟩ => rfl
      | ⟨1, _⟩ => show 64 + r.val = 64 + 1 * r.val; omega
      | ⟨2, _⟩ => show 0 * 8 + (jj.val * 8 + d.val) = 0 + 1 * (jj.val * 8 + d.val); omega))
  · -- rows 0.., column words 128..
    obtain ⟨r, jj, d, rfl⟩ := piece_coords x
    show k0_pay5 (k0_pay2 (View.ld x2 r0_0)) (View.ld x3 r0_1) (k0_pay3 (View.ld x0 r0_2)) (View.ld x1 r0_5) _ = _
    refine (chunk_entry x0 x1 x2 x3 _ _ 0 128 (by omega) (by omega) (rows_lo x0) (cols_hi x1) r jj d).trans ?_
    exact congrArg (blockFn x0 x1 x2 x3) (funext fun a => Fin.ext (by
      match a with
      | ⟨0, _⟩ => rfl
      | ⟨1, _⟩ => show 0 + r.val = 0 + 1 * r.val; omega
      | ⟨2, _⟩ => show 128 * 8 + (jj.val * 8 + d.val) = 1024 + 1 * (jj.val * 8 + d.val); omega))
  · -- rows 0.., column words 0..
    obtain ⟨r, jj, d, rfl⟩ := piece_coords x
    show k0_pay4 (View.ld x2 r0_0) (View.ld x3 r0_1) (View.ld x0 r0_2) (View.ld x1 r0_3) _ = _
    rw [first_chunk]
    refine (chunk_entry x0 x1 x2 x3 _ _ 0 0 (by omega) (by omega) (rows_lo x0) (cols_lo x1) r jj d).trans ?_
    exact congrArg (blockFn x0 x1 x2 x3) (funext fun a => Fin.ext (by
      match a with
      | ⟨0, _⟩ => rfl
      | ⟨1, _⟩ => show 0 + r.val = 0 + 1 * r.val; omega
      | ⟨2, _⟩ => show 0 * 8 + (jj.val * 8 + d.val) = 0 + 1 * (jj.val * 8 + d.val); omega))

end Cert.KernelIdeal.Block

end
-- ==== Proof.Arrays.lean ====
/-
  The output array after the region.

  Before the region the host lays the position words out as a column array `[4, 2048, 1]` and as a row array
  `[4, 1, 2048]` (two reshapes of the same `[4, 2048]` words) and transposes the table to `65 x 8`. Grid point
  `(b, i0, j0)` sees rows `i0 * 128 ..` of batch `b` of the column array, column words `j0 * 256 ..` of batch `b` of the
  row array, the whole table and the whole bias, and writes block `(b, i0, j0)` — rows `i0 * 128 ..`, flat columns
  `j0 * 2048 ..` — of the `[4, 2048, 16384]` output. What it writes is that block of ONE function of the arguments: at
  `(b, i, q)` the encoding's entry `(b, i, q / 8, q % 8)`. The 512 blocks tile the array, so the array ends as that
  function.
-/
import proofs.«418835_j32366873543059_2_alg».proof.Proof.Block
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem Idealize.ShloMosaic.StableHlo
open Cert.KernelIdeal Cert.KernelIdeal.Gen Cert.KernelIdeal.Block Cert.Encoding

variable (m : (ℓ : Loc nD τ sig) → Buf (Elt Ideal) ℓ)

/-! ## The arguments, and the arrays the region finds -/

/-- The position words, the table and the bias as launched on core `c`. -/
abbrev words (c : Dev nD) : S4x2048.Idx → BitVec 32 := m ((c : Thread nD τ).loc main_arg0)
abbrev table (c : Dev nD) : S8x65.Idx → EReal := m ((c : Thread nD τ).loc main_arg1)
abbrev offs (c : Dev nD) : S8.Idx → EReal := m ((c : Thread nD τ).loc main_arg2)

/-- The column array at `(b, i, 0)` is word `(b, i)`. -/
theorem colArr_apply (c : Dev nD) (b : Fin 4) (i : Fin 2048) :
    (V m c main_v1 : S4x2048x1.Idx → BitVec 32) (ix3 b i (0 : Fin 1)) = words m c (ix2 b i) := by
  have e : (V m c main_v1 : S4x2048x1.Idx → BitVec 32) = shapeCast S4x2048x1 (words m c) shapeCasts_S4x2048_S4x2048x1 := by
    show StableHlo.after hostOps0 (fun b => m (c, b)) (Proc.devRef .tc main_v1) = _
    after_results <;> rfl
  rw [e]
  refine shapeCast_apply _ _ (ix3 b i (0 : Fin 1)) (ix2 b i) ?_
  rw [Shape.rowMajor_val_three, Shape.rowMajor_val_two]
  show b.val * 2048 + i.val = (b.val * 2048 + i.val) * 1 + 0
  omega

/-- The row array at `(b, 0, j)` is word `(b, j)`. -/
theorem rowArr_apply (c : Dev nD) (b : Fin 4) (j : Fin 2048) :
    (V m c main_v2 : S4x1x2048.Idx → BitVec 32) (ix3 b (0 : Fin 1) j) = words m c (ix2 b j) := by
  have e : (V m c main_v2 : S4x1x2048.Idx → BitVec 32) = shapeCast S4x1x2048 (words m c) shapeCasts_S4x2048_S4x1x2048 := by
    show StableHlo.after hostOps0 (fun b => m (c, b)) (Proc.devRef .tc main_v2) = _
    after_results <;> rfl
  rw [e]
  refine shapeCast_apply _ _ (ix3 b (0 : Fin 1) j) (ix2 b j) ?_
  rw [Shape.rowMajor_val_three, Shape.rowMajor_val_two]
  show b.val * 2048 + j.val = (b.val * 1 + 0) * 2048 + j.val
  omega

/-- The transposed table at `(k, d)` is the table at `(d, k)`. -/
theorem tableT_apply (c : Dev nD) (k : Fin 65) (d : Fin 8) :
    (V m c main_v0 : S65x8.Idx → EReal) (ix2 k d) = table m c (ix2 d k) := by
  have e : (V m c main_v0 : S65x8.Idx → EReal) = transpose S65x8 [1, 0] (table m c) transposes_S8x65_S65x8_1_0 := by
    show StableHlo.after hostOps0 (fun b => m (c, b)) (Proc.devRef .tc main_v0) = _
    after_results <;> rfl
  rw [e]
  exact transpose_apply [1, 0] (table m c) transposes_S8x65_S65x8_1_0 (ix2 k d) (ix2 d k) (fun b => match b with
    | ⟨0, _⟩ => rfl
    | ⟨1, _⟩ => rfl)

/-! ## One function for the whole output array -/

/-- The encoding's entry, with its four coordinates as arguments. -/
def encAt (index : S4x2048.Idx → BitVec 32) (W : S8x65.Idx → EReal) (bias : S8.Idx → EReal)
    (b : Fin 4) (i j : Fin 2048) (d : Fin 8) : EReal :=
  W (ix2 d (binRow (index (ix2 b i)) (index (ix2 b j)))) + bias (ix1 d)

/-- The flat output: at `(b, i, q)` the encoding's entry `(b, i, q / 8, q % 8)`. -/
def flat (index : S4x2048.Idx → BitVec 32) (W : S8x65.Idx → EReal) (bias : S8.Idx → EReal) : S4x2048x16384.Idx → EReal :=
  fun y => encAt index W bias (y 0) (y 1) (⟨(y 2).val / 8, by have h : (y 2).val < 16384 := (y 2).isLt; omega⟩ : Fin 2048)
    (⟨(y 2).val % 8, by omega⟩ : Fin 8)

/-- A block whose row words are words `(b, i0 * 128 ..)`, whose column words are words `(b, j0 * 256 ..)`, whose table is
    the transposed table and whose bias is the bias is block `(b, i0, j0)` of the flat output. -/
theorem block_eq_flat (index : S4x2048.Idx → BitVec 32) (W : S8x65.Idx → EReal) (bias : S8.Idx → EReal)
    (x0 : Vec Ideal S1x128x1 .i32) (x1 : Vec Ideal S1x1x256 .i32) (x2 : Vec Ideal S65x8 .f32) (x3 : Vec Ideal S8 .f32)
    (b : Fin 4) (i0 j0 : Nat) (hi0 : i0 < 16) (hj0 : j0 < 8)
    (h0 : ∀ p : Fin 128, x0 (ix3 (0 : Fin 1) p (0 : Fin 1)) = index (ix2 b (⟨i0 * 128 + p.val, by omega⟩ : Fin 2048)))
    (h1 : ∀ q : Fin 256, x1 (ix3 (0 : Fin 1) (0 : Fin 1) q) = index (ix2 b (⟨j0 * 256 + q.val, by omega⟩ : Fin 2048)))
    (h2 : ∀ (k : Fin 65) (d : Fin 8), x2 (ix2 k d) = W (ix2 d k))
    (h3 : ∀ d : Fin 8, x3 (ix1 d) = bias (ix1 d))
    (p : Fin 128) (q : Fin 2048) :
    blockFn x0 x1 x2 x3 (ix3 (0 : Fin 1) p q)
      = flat index W bias (ix3 b (⟨i0 * 128 + p.val, by omega⟩ : Fin 2048) (⟨j0 * 2048 + q.val, by omega⟩ : Fin 16384)) := by
  have hq := q.isLt
  show x2 (ix2 (binRow (x0 (ix3 (0 : Fin 1) p (0 : Fin 1))) (x1 (ix3 (0 : Fin 1) (0 : Fin 1) (⟨q.val / 8, by omega⟩ : Fin 256))))
      (⟨q.val % 8, by omega⟩ : Fin 8)) + x3 (ix1 (⟨q.val % 8, by omega⟩ : Fin 8)) = _
  rw [h0, h1, h2, h3]
  show encAt index W bias b (⟨i0 * 128 + p.val, by omega⟩ : Fin 2048) (⟨j0 * 256 + q.val / 8, by omega⟩ : Fin 2048)
      (⟨q.val % 8, by omega⟩ : Fin 8)
    = encAt index W bias b (⟨i0 * 128 + p.val, by omega⟩ : Fin 2048) (⟨(j0 * 2048 + q.val) / 8, by omega⟩ : Fin 2048)
      (⟨(j0 * 2048 + q.val) % 8, by omega⟩ : Fin 8)
  have e1 : (⟨j0 * 256 + q.val / 8, by omega⟩ : Fin 2048) = ⟨(j0 * 2048 + q.val) / 8, by omega⟩ :=
    Fin.ext (by show j0 * 256 + q.val / 8 = (j0 * 2048 + q.val) / 8; omega)
  have e2 : (⟨q.val % 8, by omega⟩ : Fin 8) = ⟨(j0 * 2048 + q.val) % 8, by omega⟩ :=
    Fin.ext (by show q.val % 8 = (j0 * 2048 + q.val) % 8; omega)
  rw [e1, e2]

/-! ## What a grid point writes back -/

/-- The printed index maps, decided over the 512 grid points: the column array moves with the output's batch and row
    block, the row array with its batch and column block, the table and the bias stay; and the output's block numbers
    stay inside the `4 x 16 x 8` box. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = win0_4.index t (2 : Fin 3)
    ∧ win0_2.index t (0 : Fin 2) = 0 ∧ win0_2.index t (1 : Fin 2) = 0 ∧ win0_3.index t (0 : Fin 1) = 0
    ∧ win0_4.index t (0 : Fin 3) < 4 ∧ win0_4.index t (1 : Fin 3) < 16 ∧ win0_4.index t (2 : Fin 3) < 8 :=
  (by decide +kernel : ∀ t : Fin grid0.N, _)

/-- The input blocks at point `t`, named at their literal types. -/
abbrev colBlk (c : Dev nD) (t : Fin cfg0.N) : Vec Ideal S1x128x1 .i32 := iblk m c 0 t
abbrev rowBlk (c : Dev nD) (t : Fin cfg0.N) : Vec Ideal S1x1x256 .i32 := iblk m c 1 t
abbrev tblBlk (c : Dev nD) (t : Fin cfg0.N) : Vec Ideal S65x8 .f32 := iblk m c 2 t
abbrev offBlk (c : Dev nD) (t : Fin cfg0.N) : Vec Ideal S8 .f32 := iblk m c 3 t

/-- Row word `p` of the column block at point `t` is word `(b, i0 * 128 + p)`, with `(b, i0)` the output's batch and row block. -/
theorem colBlk_apply (c : Dev nD) (t : Fin cfg0.N) (p : Fin 128)
    (l0 : win0_4.index t (0 : Fin 3) < 4) (l1 : win0_4.index t (1 : Fin 3) < 16) :
    colBlk m c t (ix3 (0 : Fin 1) p (0 : Fin 1))
      = words m c (ix2 (⟨win0_4.index t (0 : Fin 3), l0⟩ : Fin 4) (⟨win0_4.index t (1 : Fin 3) * 128 + p.val, by omega⟩ : Fin 2048)) := by
  obtain ⟨e00, e01, e02, -⟩ := idx_facts t
  refine Eq.trans ?_ (colArr_apply m c _ _)
  show V m c main_v1 (((cfg0.win 0).blk t).view.emb (ix3 (0 : Fin 1) p (0 : Fin 1))) = _
  refine congrArg (V m c main_v1) (funext fun a => Fin.ext ?_)
  match a with
  | ⟨0, _⟩ => show win0_0.index t (0 : Fin 3) * 1 + 1 * 0 = win0_4.index t (0 : Fin 3); omega
  | ⟨1, _⟩ => show win0_0.index t (1 : Fin 3) * 128 + 1 * p.val = win0_4.index t (1 : Fin 3) * 128 + p.val; omega
  | ⟨2, _⟩ => show win0_0.index t (2 : Fin 3) * 1 + 1 * 0 = 0; omega

/-- Column word `q` of the row block at point `t` is word `(b, j0 * 256 + q)`, with `(b, j0)` the output's batch and column block. -/
theorem rowBlk_apply (c : Dev nD) (t : Fin cfg0.N) (q : Fin 256)
    (l0 : win0_4.index t (0 : Fin 3) < 4) (l2 : win0_4.index t (2 : Fin 3) < 8) :
    rowBlk m c t (ix3 (0 : Fin 1) (0 : Fin 1) q)
      = words m c (ix2 (⟨win0_4.index t (0 : Fin 3), l0⟩ : Fin 4) (⟨win0_4.index t (2 : Fin 3) * 256 + q.val, by omega⟩ : Fin 2048)) := by
  obtain ⟨-, -, -, e10, e11, e12, -⟩ := idx_facts t
  refine Eq.trans ?_ (rowArr_apply m c _ _)
  show V m c main_v2 (((cfg0.win 1).blk t).view.emb (ix3 (0 : Fin 1) (0 : Fin 1) q)) = _
  refine congrArg (V m c main_v2) (funext fun a => Fin.ext ?_)
  match a with
  | ⟨0, _⟩ => show win0_1.index t (0 : Fin 3) * 1 + 1 * 0 = win0_4.index t (0 : Fin 3); omega
  | ⟨1, _⟩ => show win0_1.index t (1 : Fin 3) * 1 + 1 * 0 = 0; omega
  | ⟨2, _⟩ => show win0_1.index t (2 : Fin 3) * 256 + 1 * q.val = win0_4.index t (2 : Fin 3) * 256 + q.val; omega

/-- The table block is the transposed table. -/
theorem tblBlk_apply (c : Dev nD) (t : Fin cfg0.N) (k : Fin 65) (d : Fin 8) :
    tblBlk m c t (ix2 k d) = table m c (ix2 d k) := by
  obtain ⟨-, -, -, -, -, -, e20, e21, -⟩ := idx_facts t
  refine Eq.trans ?_ (tableT_apply m c k d)
  show V m c main_v0 (((cfg0.win 2).blk t).view.emb (ix2 k d)) = _
  refine congrArg (V m c main_v0) (funext fun a => Fin.ext ?_)
  match a with
  | ⟨0, _⟩ => show win0_2.index t (0 : Fin 2) * 65 + 1 * k.val = k.val; omega
  | ⟨1, _⟩ => show win0_2.index t (1 : Fin 2) * 8 + 1 * d.val = d.val; omega

/-- The bias block is the bias. -/
theorem offBlk_apply (c : Dev nD) (t : Fin cfg0.N) (d : Fin 8) :
    offBlk m c t (ix1 d) = offs m c (ix1 d) := by
  obtain ⟨-, -, -, -, -, -, -, -, e30, -⟩ := idx_facts t
  refine Eq.trans ?_ (congrFun (V_main_arg2 m c) (ix1 d))
  show V m c main_arg2 (((cfg0.win 3).blk t).view.emb (ix1 d)) = _
  refine congrArg (V m c main_arg2) (funext fun a => Fin.ext ?_)
  match a with
  | ⟨0, _⟩ => show win0_3.index t (0 : Fin 1) * 8 + 1 * d.val = d.val; omega

/-- WHAT POINT `t` WRITES BACK is block `t` of the flat output of the arguments. -/
theorem flushed_eq (c : Dev nD) (t : Fin cfg0.N) :
    (dats m 0 c).flushed 4 t = ((cfg0.win 4).blk t).view.read (Elt Ideal) (flat (words m c) (table m c) (offs m c)) := by
  show (cfg0.win 4).cut (grid0.coords t) ((dats m 0 c).after 4 t) = _
  rw [after0_4]
  show out0_4 (colBlk m c t) (rowBlk m c t) (tblBlk m c t) (offBlk m c t) = _
  rw [out_eq]
  obtain ⟨-, -, -, -, -, -, -, -, -, l0, l1, l2⟩ := idx_facts t
  funext y
  obtain ⟨y0, p, q, rfl⟩ : ∃ (y0 : Fin 1) (p : Fin 128) (q : Fin 2048), y = ix3 y0 p q := ⟨y 0, y 1, y 2, eq_ix3 y⟩
  obtain rfl : y0 = (0 : Fin 1) := Subsingleton.elim _ _
  refine (block_eq_flat (words m c) (table m c) (offs m c) (colBlk m c t) (rowBlk m c t) (tblBlk m c t) (offBlk m c t)
    (⟨win0_4.index t (0 : Fin 3), l0⟩ : Fin 4) (win0_4.index t (1 : Fin 3)) (win0_4.index t (2 : Fin 3)) l1 l2
    (fun p => colBlk_apply m c t p l0 l1) (fun q => rowBlk_apply m c t q l0 l2) (tblBlk_apply m c t) (offBlk_apply m c t) p q).trans ?_
  show flat (words m c) (table m c) (offs m c) _ = flat (words m c) (table m c) (offs m c) (((cfg0.win 4).blk t).view.emb (ix3 (0 : Fin 1) p q))
  refine congrArg (flat (words m c) (table m c) (offs m c)) (funext fun a => Fin.ext ?_)
  match a with
  | ⟨0, _⟩ => show win0_4.index t (0 : Fin 3) = win0_4.index t (0 : Fin 3) * 1 + 1 * 0; omega
  | ⟨1, _⟩ => show win0_4.index t (1 : Fin 3) * 128 + p.val = win0_4.index t (1 : Fin 3) * 128 + 1 * p.val; omega
  | ⟨2, _⟩ => show win0_4.index t (2 : Fin 3) * 2048 + q.val = win0_4.index t (2 : Fin 3) * 2048 + 1 * q.val; omega

/-! ## The blocks tile the array -/

/-- Block `(q0, q1, q2)` of the output is the block of grid point `q0 * 128 + q1 * 8 + q2`. -/
theorem point_of_block : ∀ (q0 : Fin 4) (q1 : Fin 16) (q2 : Fin 8),
    win0_4.index (⟨q0.val * 128 + q1.val * 8 + q2.val, by rw [N_0]; omega⟩ : Fin grid0.N) = ![q0.val, q1.val, q2.val] :=
  by decide +kernel

/-- An index of the array is in point `t`'s block iff each coordinate is in the block's range on its axis. -/
theorem mem_blk (t : Fin cfg0.N) (i : S4x2048x16384.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v3).slice (win0_4.rect t)).set ↔ _
  rw [View.set_slice_whole, Rect.mem_set_unit]
  exact Iff.rfl

/-- Every index of the output array is in some point's block. -/
theorem covered (i : S4x2048x16384.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 16384 := (i 2).isLt
  obtain ⟨t, ht⟩ : ∃ t : Fin cfg0.N, win0_4.index t = ![(i 0).val, (i 1).val / 128, (i 2).val / 2048] :=
    ⟨_, point_of_block (i 0) (⟨(i 1).val / 128, by omega⟩ : Fin 16) (⟨(i 2).val / 2048, by omega⟩ : Fin 8)⟩
  refine ⟨t, flush0_4 t, ?_⟩
  rw [mem_blk]
  intro a
  have q0 := congrFun ht (0 : Fin 3)
  have q1 := congrFun ht (1 : Fin 3)
  have q2 := congrFun ht (2 : Fin 3)
  match a with
  | ⟨0, _⟩ =>
    show win0_4.index t (0 : Fin 3) * 1 ≤ (i 0).val ∧ (i 0).val < win0_4.index t (0 : Fin 3) * 1 + 1
    rw [q0]; show (i 0).val * 1 ≤ (i 0).val ∧ (i 0).val < (i 0).val * 1 + 1; omega
  | ⟨1, _⟩ =>
    show win0_4.index t (1 : Fin 3) * 128 ≤ (i 1).val ∧ (i 1).val < win0_4.index t (1 : Fin 3) * 128 + 128
    rw [q1]; show (i 1).val / 128 * 128 ≤ (i 1).val ∧ (i 1).val < (i 1).val / 128 * 128 + 128; omega
  | ⟨2, _⟩ =>
    show win0_4.index t (2 : Fin 3) * 2048 ≤ (i 2).val ∧ (i 2).val < win0_4.index t (2 : Fin 3) * 2048 + 2048
    rw [q2]; show (i 2).val / 2048 * 2048 ≤ (i 2).val ∧ (i 2).val < (i 2).val / 2048 * 2048 + 2048; omega

/-- THE OUTPUT ARRAY after the region is the flat output of the arguments. -/
theorem final (c : Dev nD) : (dats m 0 c).arrAt 4 cfg0.N = flat (words m c) (table m c) (offs m c) :=
  (dats m 0 c).arrAt_eq_of_cover 4 (flat (words m c) (table m c) (offs m c)) (fun t _ => flushed_eq m c t) covered

end Cert.KernelIdeal.Arrays

end
-- ==== Proof.Result.lean ====
/-
  The kernel's result.

  After the region the host reshapes the `[4, 2048, 16384]` output to `[4, 2048, 2048, 8]`, row-major: entry
  `(b, i, j, d)` of the result is entry `(b, i, j * 8 + d)` of the flat output, which is the encoding's entry
  `(b, i, j, d)`. So every run of the kernel ends with the encoding of its arguments in the result, the arguments
  unchanged.
-/
import proofs.«418835_j32366873543059_2_alg».proof.Proof.Arrays

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.Arrays Cert.Encoding

/-- The flat output, reshaped row-major to four axes, is the encoding. -/
theorem flat_reshaped (index : S4x2048.Idx → BitVec 32) (W : S8x65.Idx → EReal) (bias : S8.Idx → EReal) :
    shapeCast S4x2048x2048x8 (flat index W bias) shapeCasts_S4x2048x16384_S4x2048x2048x8 = enc index W bias := by
  funext y
  obtain ⟨b, i, j, d, rfl⟩ : ∃ (b : Fin 4) (i j : Fin 2048) (d : Fin 8), y = ix4 b i j d :=
    ⟨y 0, y 1, y 2, y 3, eq_ix4 y⟩
  have hj := j.isLt
  have hd := d.isLt
  refine (shapeCast_apply _ _ (ix4 b i j d) (ix3 b i (⟨j.val * 8 + d.val, by omega⟩ : Fin 16384)) ?_).trans ?_
  · rw [Shape.rowMajor_val_three, Shape.rowMajor_val_four]
    show (b.val * 2048 + i.val) * 16384 + (j.val * 8 + d.val) = ((b.val * 2048 + i.val) * 2048 + j.val) * 8 + d.val
    omega
  · show encAt index W bias b i (⟨(j.val * 8 + d.val) / 8, by omega⟩ : Fin 2048) (⟨(j.val * 8 + d.val) % 8, by omega⟩ : Fin 8)
      = encAt index W bias b i j d
    have e1 : (⟨(j.val * 8 + d.val) / 8, by omega⟩ : Fin 2048) = j := Fin.ext (by show (j.val * 8 + d.val) / 8 = j.val; omega)
    have e2 : (⟨(j.val * 8 + d.val) % 8, by omega⟩ : Fin 8) = d := Fin.ext (by show (j.val * 8 + d.val) % 8 = d.val; omega)
    rw [e1, e2]

variable (m : (ℓ : Loc nD τ sig) → Buf (Elt Ideal) ℓ) (ρ : Dev nD → PrngReg)

/-- The result buffer after the host's closing reshape is the encoding of the arguments. -/
theorem result_eq (c : Dev nD) :
    (Pipeline.afterTail₀ cfgs (dats m) 0 (V0 m) [hostOps1] c main_v4 : S4x2048x2048x8.Idx → EReal)
      = enc (words m c) (table m c) (offs m c) := by
  have hw : Pipeline.withArrays (cfgs 0).spec c (V0 m c) (fun w => (dats m 0 c).arrAt w (cfgs 0).N) (Proc.devRef .tc main_v3)
      = (dats m 0 c).arrAt 4 cfg0.N :=
    Pipeline.withArrays_arr spec0 launch0.win.arr_inj c (V0 m c) _ 4
  unfold Pipeline.afterTail₀
  show StableHlo.after hostOps1 _ (Proc.devRef .tc main_v4) = _
  after_results
  rw [hw, final]
  exact flat_reshaped _ _ _

/-- THE KERNEL'S RUN: every weakly fair execution ends with the result at the encoding of the arguments and the
    arguments unchanged. -/
theorem run : θ_run defs (onTc (τ := τ) (main (F := Ideal))) ⟨m, fun _ => 0, ρ⟩ fun r => ∀ c : Dev nD,
      r.2.mem ((c : Thread nD τ).loc main_v4) = enc (words m c) (table m c) (offs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩)
    (run_main m ρ)

end Cert.KernelIdeal.Result

end
-- ==== Proof.lean ====
/- The certificate of a relative positional encoding, `out[b, i, j, d] = W[d, bin(index[b, i], index[b, j])] + bias[d]`,
   where the bin of two position words is their wrap-around difference plus 32, clamped into `[0, 64]`.

   The kernel computes it block by block over a `4 x 16 x 8` grid: each `128 x 256` tile of the `(i, j)` plane is cut into
   four `64 x 128` chunks; a chunk turns its bins into 0/1 rows over the 65 categories and multiplies them into the
   transposed table, so the sum over the categories has exactly one non-zero term, the table's row at the bin
   (Proof/Chunk.lean); the four chunks tile the block (Proof/Block.lean), the 512 blocks tile the flat
   `[4, 2048, 16384]` output (Proof/Arrays.lean), and the closing row-major reshape gives the four-axis result
   (Proof/Result.lean). The reference forms the same bins on the host and gathers the table's rows at them; the
   gather's clamp and the negative-index wrap are both idle on a bin (Proof/RefEncoding.lean). Both results are the
   one function `enc` of the arguments (Proof/Encoding.lean), entry by entry on the extended reals: no law that needs
   finiteness is used (`0 * x = 0` and `1 * x = x` hold for every extended real), so the precondition is never opened.
   The three frames are the generated ones (the reference's is its generated run with the result dropped); the ideal
   pass rewrote nothing, so `preserves` is `True`. -/
import proofs.«418835_j32366873543059_2_alg».proof.Defs
import proofs.«418835_j32366873543059_2_alg».proof.Proof.Gen.Kernel
import proofs.«418835_j32366873543059_2_alg».proof.Proof.Gen.Kernel.Skeleton
import proofs.«418835_j32366873543059_2_alg».proof.Proof.Gen.Kernel.Launch
import proofs.«418835_j32366873543059_2_alg».proof.Proof.Gen.Kernel.Points
import proofs.«418835_j32366873543059_2_alg».proof.Proof.Gen.Kernel.Frame
import proofs.«418835_j32366873543059_2_alg».proof.Proof.Gen.KernelIdeal
import proofs.«418835_j32366873543059_2_alg».proof.Proof.Gen.KernelIdeal.Skeleton
import proofs.«418835_j32366873543059_2_alg».proof.Proof.Gen.KernelIdeal.Launch
import proofs.«418835_j32366873543059_2_alg».proof.Proof.Gen.KernelIdeal.Points
import proofs.«418835_j32366873543059_2_alg».proof.Proof.Gen.KernelIdeal.Frame
import proofs.«418835_j32366873543059_2_alg».proof.Proof.Gen.ReferenceIdeal
import proofs.«418835_j32366873543059_2_alg».proof.Proof.Gen.ReferenceIdeal.Run
import proofs.«418835_j32366873543059_2_alg».proof.Proof.Gen.ReferenceIdeal.Read
import proofs.«418835_j32366873543059_2_alg».proof.Proof.Gen.Pre_finite_inputs
import proofs.«418835_j32366873543059_2_alg».proof.Proof.RefEncoding
import proofs.«418835_j32366873543059_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what the run says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, both end with the encoding of those
    arguments in their results. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefEncoding.stage_eq_enc,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
